-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S2x800000 : Shape := ⟨2, ![2, 800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : FVec F S50000x64 .f32) (main_arg2 : FVec F S800000 .f32) (main_arg3 : FVec F S64x64 .f32) (main_arg4 : FVec F S64 .f32) (main_arg5 : IVec S2x800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S800000 .f32 := Host.absf main_arg2
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S2x800000 : Shape := ⟨2, ![2, 800000]⟩
abbrev S1x800000 : Shape := ⟨2, ![1, 800000]⟩
abbrev S800000x1 : Shape := ⟨2, ![800000, 1]⟩
abbrev S_ : Shape := ⟨0, ![]⟩
abbrev S800000x64 : Shape := ⟨2, ![800000, 64]⟩
abbrev S1x64 : Shape := ⟨2, ![1, 64]⟩
abbrev S2000x64 : Shape := ⟨2, ![2000, 64]⟩

abbrev nBuf : Space → Nat
  | .hbm => 29
  | .vmem => 8
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S800000, .f32⟩
  | .hbm, ⟨3, _⟩ => ⟨S64x64, .f32⟩
  | .hbm, ⟨4, _⟩ => ⟨S64, .f32⟩
  | .hbm, ⟨5, _⟩ => ⟨S2x800000, .i32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S800000x1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S800000x64, .f32⟩
  | .hbm, ⟨21, _⟩ => ⟨S800000x64, .f32⟩
  | .hbm, ⟨22, _⟩ => ⟨S_, .f32⟩
  | .hbm, ⟨23, _⟩ => ⟨S50000x64, .f32⟩
  | .hbm, ⟨24, _⟩ => ⟨S800000x1, .i32⟩
  | .hbm, ⟨25, _⟩ => ⟨S50000x64, .f32⟩
  | .hbm, ⟨26, _⟩ => ⟨S64x64, .f32⟩
  | .hbm, ⟨27, _⟩ => ⟨S1x64, .f32⟩
  | .hbm, ⟨28, _⟩ => ⟨S50000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x64, .f32⟩
  | .local _ .vmem, ⟨5, _⟩ => ⟨S1x64, .f32⟩
  | .local _ .vmem, ⟨6, _⟩ => ⟨S2000x64, .f32⟩
  | .local _ .vmem, ⟨7, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  transposes_S64x64_S64x64_1_0 : S64x64.Transposes [1, 0] S64x64
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S50000x64.size a
  hwx0_4 : ∀ i : grid0.Coords, EltTy.bits .f32 = 32 ∨ (Rect.block (s := S50000x64) S2000x64.size (cc0_transform_4 i) (hinb0_4 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v16) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S2000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S2x800000 : Shape := ⟨2, ![2, 800000]⟩
abbrev S1x800000 : Shape := ⟨2, ![1, 800000]⟩
abbrev S800000x1 : Shape := ⟨2, ![800000, 1]⟩
abbrev S_ : Shape := ⟨0, ![]⟩
abbrev S800000x64 : Shape := ⟨2, ![800000, 64]⟩
abbrev S1x64 : Shape := ⟨2, ![1, 64]⟩

abbrev nBuf : Space → Nat
  | .hbm => 45
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S800000, .f32⟩
  | .hbm, ⟨3, _⟩ => ⟨S64x64, .f32⟩
  | .hbm, ⟨4, _⟩ => ⟨S64, .f32⟩
  | .hbm, ⟨5, _⟩ => ⟨S2x800000, .i32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S800000x1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S800000x64, .f32⟩
  | .hbm, ⟨21, _⟩ => ⟨S800000x64, .f32⟩
  | .hbm, ⟨22, _⟩ => ⟨S_, .f32⟩
  | .hbm, ⟨23, _⟩ => ⟨S50000x64, .f32⟩
  | .hbm, ⟨24, _⟩ => ⟨S800000x1, .i32⟩
  | .hbm, ⟨25, _⟩ => ⟨S50000x64, .f32⟩
  | .hbm, ⟨26, _⟩ => ⟨S_, .f32⟩
  | .hbm, ⟨27, _⟩ => ⟨S50000x64, .f32⟩
  | .hbm, ⟨28, _⟩ => ⟨S50000x64, .f32⟩
  | .hbm, ⟨29, _⟩ => ⟨S_, .f32⟩
  | .hbm, ⟨30, _⟩ => ⟨S50000x64, .f32⟩
  | .hbm, ⟨31, _⟩ => ⟨S50000x64, .f32⟩
  | .hbm, ⟨32, _⟩ => ⟨S50000x64, .f32⟩
  | .hbm, ⟨33, _⟩ => ⟨S64x64, .f32⟩
  | .hbm, ⟨34, _⟩ => ⟨S50000x64, .f32⟩
  | .hbm, ⟨35, _⟩ => ⟨S1x64, .f32⟩
  | .hbm, ⟨36, _⟩ => ⟨S50000x64, .f32⟩
  | .hbm, ⟨37, _⟩ => ⟨S50000x64, .f32⟩
  | .hbm, ⟨38, _⟩ => ⟨S_, .f32⟩
  | .hbm, ⟨39, _⟩ => ⟨S50000x64, .f32⟩
  | .hbm, ⟨40, _⟩ => ⟨S50000x64, .f32⟩
  | .hbm, ⟨41, _⟩ => ⟨S_, .f32⟩
  | .hbm, ⟨42, _⟩ => ⟨S50000x64, .f32⟩
  | .hbm, ⟨43, _⟩ => ⟨S50000x64, .f32⟩
  | .hbm, ⟨44, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Layer.lean ====
/-
  The dense half of one GCNII layer, as a function of whole arrays over the extended reals.

  Given the aggregated messages `h` (one row of 64 features per node), the layer's initial features `x0`, a weight
  matrix `w` and a bias `b`, the layer first mixes each row with its initial row,
      mix r k = c₉ · h r k + c₁ · x0 r k,
  then applies the linear map by ROWS of `w` (the product with the transpose of `w`) and the bias, and averages
  the result with the mixed row itself:
      layer r j = ½ · (Σₖ mix r k · w j k + b j) + ½ · mix r j.
  The three coefficients are the binary32 numbers nearest 0.9, 0.1 and 0.5; they are kept as their words, since both
  programs spell the same words and nothing below needs their values.

  No law of arithmetic is used anywhere: both programs compute this very expression, in this grouping, so the
  statement holds for every extended real, finite or not.
-/
import Idealize.ShloMosaic.PureOps.Ideal
import Idealize.ShloMosaic.Lib.ValueIdx
import Idealize.ShloMosaic.Lib.Pipeline.Value

noncomputable section

open scoped BigOperators

namespace Cert.Layer

open Idealize.ShloMosaic Idealize.ShloMosaic.ValueIdx

/-- One row of 64 features for each of the 50000 nodes. -/
abbrev Nodes : Shape := ⟨2, ![50000, 64]⟩
/-- The square weight matrix. -/
abbrev Weights : Shape := ⟨2, ![64, 64]⟩
/-- The bias, one entry per output feature. -/
abbrev Bias : Shape := ⟨1, ![64]⟩

/-- The weight of the aggregated messages in the mix: the binary32 number nearest 0.9. -/
abbrev keep : EReal := Ideal.ofBits .f32 0x3F666666#32
/-- The weight of the initial features in the mix: the binary32 number nearest 0.1. -/
abbrev anchor : EReal := Ideal.ofBits .f32 0x3DCCCCCD#32
/-- One half, the weight of both terms of the final average. -/
abbrev half : EReal := Ideal.ofBits .f32 0x3F000000#32

/-- Node `r`'s feature `k` after the mix with the initial features. -/
def mix (h x0 : Nodes.Idx → EReal) (r : Fin 50000) (k : Fin 64) : EReal :=
  keep * h (ix2 r k) + anchor * x0 (ix2 r k)

/-- The layer's output: the average of the mixed row and its affine image under the rows of `w`. -/
def layer (h x0 : Nodes.Idx → EReal) (w : Weights.Idx → EReal) (b : Bias.Idx → EReal) : Nodes.Idx → EReal :=
  fun i => half * ((∑ k : Fin 64, mix h x0 (i 0) k * w (ix2 (i 1) k)) + b (ix1 (i 1))) + half * mix h x0 (i 0) (i 1)

/-- The output at the index of coordinates `r`, `j`. -/
theorem layer_apply (h x0 : Nodes.Idx → EReal) (w : Weights.Idx → EReal) (b : Bias.Idx → EReal) (r : Fin 50000) (j : Fin 64) :
    layer h x0 w b (ix2 r j) = half * ((∑ k : Fin 64, mix h x0 r k * w (ix2 j k)) + b (ix1 j)) + half * mix h x0 r j := rfl

/-! ## The same function from the transposed weights and the bias as a row

The kernel is handed the weights already transposed (`wt k j = w j k`) and the bias reshaped to one row of 64
entries; in those terms the product runs down a COLUMN of `wt`. -/

/-- The bias laid out as a matrix of one row. -/
abbrev BiasRow : Shape := ⟨2, ![1, 64]⟩

/-- The layer's output from the transposed weights `wt` and the bias row `b2`. -/
def layerT (h x0 : Nodes.Idx → EReal) (wt : Weights.Idx → EReal) (b2 : BiasRow.Idx → EReal) : Nodes.Idx → EReal :=
  fun i => half * ((∑ k : Fin 64, mix h x0 (i 0) k * wt (ix2 k (i 1))) + b2 (ix2 0 (i 1))) + half * mix h x0 (i 0) (i 1)

/-- The output at the index of coordinates `r`, `j`, from the transposed weights and the bias row. -/
theorem layerT_apply (h x0 : Nodes.Idx → EReal) (wt : Weights.Idx → EReal) (b2 : BiasRow.Idx → EReal) (r : Fin 50000) (j : Fin 64) :
    layerT h x0 wt b2 (ix2 r j) = half * ((∑ k : Fin 64, mix h x0 r k * wt (ix2 k j)) + b2 (ix2 0 j)) + half * mix h x0 r j := rfl

/-- Entry `(k, j)` of the transpose is entry `(j, k)` of the matrix. -/
theorem transpose_entry (w : Weights.Idx → EReal) (hT : Weights.Transposes [1, 0] Weights) (k j : Fin 64) :
    transpose Weights [1, 0] w hT (ix2 k j) = w (ix2 j k) :=
  transpose_apply [1, 0] w hT (ix2 k j) (ix2 j k) (fun b => match b with
    | ⟨0, _⟩ => rfl
    | ⟨1, _⟩ => rfl)

/-- Entry `j` of the one row is entry `j` of the bias. -/
theorem row_entry (b : Bias.Idx → EReal) (hC : Bias.ShapeCasts BiasRow) (j : Fin 64) :
    shapeCast BiasRow b hC (ix2 0 j) = b (ix1 j) :=
  shapeCast_apply b hC (ix2 0 j) (ix1 j)
    (by rewrite [Shape.rowMajor_val_two, Shape.rowMajor_val_one]; show j.val = 0 * 64 + j.val; omega)

/-- So the layer computed from the transposed weights and the bias row is the layer. -/
theorem layerT_eq_layer (h x0 : Nodes.Idx → EReal) (w : Weights.Idx → EReal) (b : Bias.Idx → EReal)
    (hT : Weights.Transposes [1, 0] Weights) (hC : Bias.ShapeCasts BiasRow) :
    layerT h x0 (transpose Weights [1, 0] w hT) (shapeCast BiasRow b hC) = layer h x0 w b := by
  funext i
  obtain ⟨r, j, rfl⟩ : ∃ (r : Fin 50000) (j : Fin 64), i = ix2 r j := ⟨i 0, i 1, eq_ix2 i⟩
  rw [layerT_apply, layer_apply, row_entry]
  refine congrArg (fun s => half * (s + b (ix1 j)) + half * mix h x0 r j) (Finset.sum_congr rfl fun k _ => ?_)
  rw [transpose_entry]

end Cert.Layer

end
-- ==== Proof.RefLayer.lean ====
/-
  The reference program's result, read one stage at a time, is the layer function of `Layer.lean`.

  The reference first aggregates the edge messages into one row per node (its stage `%16`: a gather of the source
  rows, each scaled by its edge weight, summed into the destination rows). That aggregation is kept WHOLE here, as
  the array `h` it produces: the kernel computes it with the very same operations, so nothing about it is needed
  beyond its name. Every later stage is pointwise, a broadcast of a constant, the transpose of the weights, or the
  one product of the mixed rows with the transposed weights, which at an index is the sum over the 64 features
  `k` of `mix r k · w j k`: entry `(k, j)` of the transpose is entry `(j, k)` of `w`.
-/
import proofs.«136563_j21852793602415_1_alg».proof.Proof.Gen.ReferenceIdeal.Read
import proofs.«136563_j21852793602415_1_alg».proof.Proof.Layer

noncomputable section

open scoped BigOperators

namespace Cert.RefLayer

open Idealize.ShloMosaic Idealize.ShloMosaic.ValueIdx Cert.ReferenceIdeal Cert.ReferenceIdeal.Read Cert.Layer

variable (x0 x1 : (⟨S50000x64, .f32⟩ : BufTy).Contents (Elt Ideal)) (x2 : (⟨S800000, .f32⟩ : BufTy).Contents (Elt Ideal))
  (x3 : (⟨S64x64, .f32⟩ : BufTy).Contents (Elt Ideal)) (x4 : (⟨S64, .f32⟩ : BufTy).Contents (Elt Ideal))
  (x5 : (⟨S2x800000, .i32⟩ : BufTy).Contents (Elt Ideal))

/-- The left factor of the product at output `(r, j)` and feature `k` is read at `(r, k)`. -/
theorem left_index (r : Fin 50000) (j k : Fin 64) : lidx_main_v23 (ix2 r j) k = ix2 r k := by
  funext a; match a with | ⟨0, _⟩ => rfl | ⟨1, _⟩ => rfl

/-- The right factor is the transposed weights at `(k, j)`, that is the weights at `(j, k)`. -/
theorem right_index (r : Fin 50000) (j k : Fin 64) : idx_main_v22 (ridx_main_v23 (ix2 r j) k) = ix2 j k := by
  funext a; match a with | ⟨0, _⟩ => rfl | ⟨1, _⟩ => rfl

/-- The bias, broadcast along the nodes, is read at the output feature. -/
theorem bias_index (r : Fin 50000) (j : Fin 64) : idx_main_v24 (idx_main_v25 (ix2 r j)) = ix1 j := by
  funext a; match a with | ⟨0, _⟩ => rfl

/-- The reference's aggregated messages: its stage `%16`, kept whole. -/
abbrev agg : Nodes.Idx → EReal := val_main_v16 (F := Ideal) x0 x2 x5

/-- Stage `%21`, the mix of the aggregated rows with the initial rows, at an index. -/
theorem mixed_apply (r : Fin 50000) (k : Fin 64) :
    val_main_v21 (F := Ideal) x0 x1 x2 x5 (ix2 r k) = mix (agg x0 x2 x5) x1 r k := by
  rw [val_main_v21_apply, val_main_v18_apply, val_main_v17_apply, val_main_cst_1_apply, val_main_v20_apply,
    val_main_v19_apply, val_main_cst_2_apply]
  rfl

/-- Stage `%23`, the product with the transposed weights, at an index: the sum over the features. -/
theorem product_apply (r : Fin 50000) (j : Fin 64) :
    val_main_v23 (F := Ideal) x0 x1 x2 x3 x5 (ix2 r j) = ∑ k : Fin 64, mix (agg x0 x2 x5) x1 r k * x3 (ix2 j k) := by
  rw [val_main_v23_apply]
  refine Finset.sum_congr rfl fun k _ => ?_
  rw [left_index r j k, mixed_apply, val_main_v22_apply, right_index r j k]

/-- Stage `%25`, the bias along the nodes, at an index. -/
theorem bias_apply (r : Fin 50000) (j : Fin 64) : val_main_v25 (F := Ideal) x4 (ix2 r j) = x4 (ix1 j) := by
  rw [val_main_v25_apply, val_main_v24_apply, bias_index r j]

/-- The reference's result is `layer` of its own aggregated messages, the initial features, the weights and the
    bias. -/
theorem result_eq : val_main_v31 (F := Ideal) x0 x1 x2 x3 x4 x5 = layer (agg x0 x2 x5) x1 x3 x4 := by
  funext i
  obtain ⟨r, j, rfl⟩ : ∃ (r : Fin 50000) (j : Fin 64), i = ix2 r j := ⟨i 0, i 1, eq_ix2 i⟩
  rw [layer_apply, val_main_v31_apply, val_main_v28_apply, val_main_v27_apply, val_main_cst_3_apply, val_main_v26_apply,
    product_apply, bias_apply, val_main_v30_apply, val_main_v29_apply, val_main_cst_4_apply, mixed_apply]
  rfl

end Cert.RefLayer

end
-- ==== Proof.Body.lean ====
/-
  What the kernel body stores at one index of its output block, from the blocks it loads.

  At a grid point the body loads a block of 2000 aggregated rows `h`, the matching block of initial rows `x0`, the
  whole 64 × 64 matrix `wt` (the weights already transposed by the host) and the bias as one row `b2`. It mixes
  the rows, multiplies the mixed block with `wt` on the matrix unit into a zero accumulator, adds the bias row to
  every row and averages with the mixed block. Over the extended reals the narrowing of the two matrix operands to
  bfloat16 is the identity, the product into a zero accumulator is the plain sum over the 64 features, and a
  reshape to the same shape does nothing; so at row `p`, feature `q` of the block the body stores
      ½ · (Σₖ (c₉ · h p k + c₁ · x0 p k) · wt k q + b2 0 q) + ½ · (c₉ · h p q + c₁ · x0 p q).
-/
import proofs.«136563_j21852793602415_1_alg».proof.Proof.Gen.KernelIdeal.Skeleton
import proofs.«136563_j21852793602415_1_alg».proof.Proof.Layer
import Idealize.ShloMosaic.Lib.Pipeline.Value
import Idealize.ShloMosaic.Lib.ValueIdx
import Idealize.ShloMosaic.PureOps.Ideal.Laws

noncomputable section

open scoped BigOperators

namespace Cert.Body

open Idealize.ShloMosaic Idealize.ShloMosaic.ValueIdx Cert.KernelIdeal Cert.KernelIdeal.Gen Cert.Layer

/-! ## The matrix product at an index -/

/-- The left operand's row coordinate is the output's row. -/
theorem lhs_row (i : S2000x64.Idx) (q : dot_S2000x64_S64x64_S2000x64_1_0_0_1_n_n.contr.Idx) : (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
/-- The left operand's feature coordinate is the contracted one. -/
theorem lhs_feature (i : S2000x64.Idx) (q : dot_S2000x64_S64x64_S2000x64_1_0_0_1_n_n.contr.Idx) : (dot_S2000x64_S64x64_S2000x64_1_0_0_1_n_n.lhsIdx i q 1).val = (q ⟨0, by decide⟩).val :=
  dot_S2000x64_S64x64_S2000x64_1_0_0_1_n_n.lhsIdx_val_of_single rfl i q
/-- The right operand's row coordinate is the contracted one. -/
theorem rhs_feature (i : S2000x64.Idx) (q : dot_S2000x64_S64x64_S2000x64_1_0_0_1_n_n.contr.Idx) : (dot_S2000x64_S64x64_S2000x64_1_0_0_1_n_n.rhsIdx i q 0).val = (q ⟨0, by decide⟩).val :=
  dot_S2000x64_S64x64_S2000x64_1_0_0_1_n_n.rhsIdx_val_of_single rfl i q
/-- The right operand's column coordinate is the output's feature. -/
theorem rhs_col (i : S2000x64.Idx) (q : dot_S2000x64_S64x64_S2000x64_1_0_0_1_n_n.contr.Idx) : (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The block's product with the transposed weights into a zero accumulator, at row `p` and feature `q`: the sum
    over the 64 contracted features. -/
theorem product_apply {φ₁ φ₂ : FTy} (a : FVec Ideal S2000x64 φ₁) (b : FVec Ideal S64x64 φ₂) (p : Fin 2000) (q : Fin 64) :
    matmul dot_S2000x64_S64x64_S2000x64_1_0_0_1_n_n none a b (constant S2000x64 .f32 0x00000000#32) (ix2 p q) = ∑ k : Fin 64, a (ix2 p k) * b (ix2 k q) := by
  show FloatOps.matmul dot_S2000x64_S64x64_S2000x64_1_0_0_1_n_n none a b (constant S2000x64 .f32 0x00000000#32) (ix2 p q) = _
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q) ((contrEquiv1 dot_S2000x64_S64x64_S2000x64_1_0_0_1_n_n 64 rfl rfl).symm k) = ix2 p k := funext fun a => Fin.ext (by
    match a with
    | ⟨0, _⟩ => exact lhs_row _ _
    | ⟨1, _⟩ => exact (lhs_feature _ _).trans hk)
  have er : dot_S2000x64_S64x64_S2000x64_1_0_0_1_n_n.rhsIdx (ix2 p q) ((contrEquiv1 dot_S2000x64_S64x64_S2000x64_1_0_0_1_n_n 64 rfl rfl).symm k) = ix2 k q := funext fun a => Fin.ext (by
    match a with
    | ⟨0, _⟩ => exact (rhs_feature _ _).trans hk
    | ⟨1, _⟩ => exact rhs_col _ _)
  rw [el, er]

/-! ## The bias row, repeated along the block's rows -/

theorem bias_apply (b2 : FVec Ideal S1x64 .f32) (h : S1x64.Broadcasts S2000x64) (p : Fin 2000) (q : Fin 64) :
    broadcastTo S2000x64 b2 h (ix2 p q) = b2 (ix2 0 q) :=
  broadcastTo_apply b2 h (ix2 p q) (ix2 0 q) (fun a => match a with
    | ⟨0, _⟩ => by show 0 = if (1 : Nat) = 1 then 0 else p.val; rw [if_pos rfl]
    | ⟨1, _⟩ => by show q.val = if (64 : Nat) = 1 then 0 else q.val; rw [if_neg (by decide)])

/-! ## The stored value -/

/-- What the body stores at row `p`, feature `q` of its output block. -/
theorem stored_apply (h x0 : Vec Ideal S2000x64 .f32) (wt : Vec Ideal S64x64 .f32) (b2 : Vec Ideal S1x64 .f32) (p : Fin 2000) (q : Fin 64) :
    k0_pay1 (F := Ideal) h x0 wt b2 (ix2 p q)
      = half * ((∑ k : Fin 64, (keep * h (ix2 p k) + anchor * x0 (ix2 p k)) * wt (ix2 k q)) + b2 (ix2 0 q))
        + half * (keep * h (ix2 p q) + anchor * x0 (ix2 p q)) := by
  unfold k0_pay1
  simp only [shapeCast_self]
  show half * (matmul (F := Ideal) dot_S2000x64_S64x64_S2000x64_1_0_0_1_n_n none _ _ (constant (F := Ideal) S2000x64 .f32 0x00000000#32) (ix2 p q) + broadcastTo S2000x64 b2 _ (ix2 p q)) + half * (keep * h (ix2 p q) + anchor * x0 (ix2 p q)) = _
  rw [product_apply, bias_apply]
  rfl

end Cert.Body

end
-- ==== Proof.Blocks.lean ====
/-
  From blocks to the array: after the kernel's run the output array holds the layer function of the arrays the
  region was entered with.

  The grid has 25 points; point `t` is handed rows `2000·t … 2000·t + 1999` of the aggregated messages and of the
  initial features (block index `(t, 0)` of both), the whole transposed weight matrix and the whole bias row (block
  `(0, 0)` of each, at every point), and writes back rows `2000·t … 2000·t + 1999` of the output. So an entry of a
  loaded block is the entry of its array in the same row of the output block (or, for the weights and the bias, at
  the same place), and what the body stores at row `p`, feature `q` of its block (`Body.stored_apply`) is the layer
  function at row `2000·t + p`, feature `q`. Row `r` of the array lies in the block of point `r / 2000`, so the
  25 blocks cover the array, and the array ends holding the layer function everywhere.
-/
import proofs.«136563_j21852793602415_1_alg».proof.Proof.Gen.KernelIdeal.Value
import proofs.«136563_j21852793602415_1_alg».proof.Proof.Body
import Idealize.ShloMosaic.Lib.StableHlo.Run

set_option maxRecDepth 16384

noncomputable section

open scoped BigOperators

namespace Cert.Blocks

open Cert.KernelIdeal Cert.KernelIdeal.Gen Cert.KernelIdeal.Value Cert.Layer
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

theorem index_facts : ∀ t : Fin cfg0.N, win0_0.index t (0 : Fin 2) = win0_4.index t (0 : Fin 2)
    ∧ win0_0.index t (1 : Fin 2) = 0
    ∧ win0_1.index t (0 : Fin 2) = win0_4.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The body's stored value at row `p`, feature `q` of point `t`'s block, the loaded blocks being ANY four arrays
    read through the point's input blocks: the layer function of those arrays at the output block's entry. -/
theorem point_eq (t : Fin cfg0.N) (A0 A1 : S50000x64.Idx → EReal) (A2 : S64x64.Idx → EReal) (A3 : S1x64.Idx → EReal)
    (p : Fin 2000) (q : Fin 64) :
    k0_pay1 (F := Ideal) (fun y => A0 (((cfg0.win 0).blk t).view.emb y)) (fun y => A1 (((cfg0.win 1).blk t).view.emb y))
        (fun y => A2 (((cfg0.win 2).blk t).view.emb y)) (fun y => A3 (((cfg0.win 3).blk t).view.emb y)) (ix2 p q)
      = layerT A0 A1 A2 A3 (((cfg0.win 4).blk t).view.emb (ix2 p q)) := by
  obtain ⟨e00, e01, e10, e11, e20, e21, e30, e31, e40, e41⟩ := index_facts t
  have ht : t.val < 25 := lt_of_lt_of_eq t.isLt N_0
  have hp : p.val < 2000 := p.isLt
  have hq : q.val < 64 := q.isLt
  refine (Body.stored_apply _ _ _ _ p q).trans ?_
  -- the row of the arrays that row `p` of point `t`'s blocks is
  let r : Fin 50000 := ⟨t.val * 2000 + p.val, by omega⟩
  have c0 : ∀ k : Fin 64, ((cfg0.win 0).blk t).view.emb (ix2 p k) = ix2 r k := fun k => by
    funext a; apply Fin.ext
    match a with
    | ⟨0, _⟩ => show win0_0.index t (0 : Fin 2) * 2000 + 1 * p.val = t.val * 2000 + p.val; omega
    | ⟨1, _⟩ => show win0_0.index t (1 : Fin 2) * 64 + 1 * k.val = k.val; omega
  have c1 : ∀ k : Fin 64, ((cfg0.win 1).blk t).view.emb (ix2 p k) = ix2 r k := fun k => by
    funext a; apply Fin.ext
    match a with
    | ⟨0, _⟩ => show win0_1.index t (0 : Fin 2) * 2000 + 1 * p.val = t.val * 2000 + p.val; omega
    | ⟨1, _⟩ => show win0_1.index t (1 : Fin 2) * 64 + 1 * k.val = k.val; omega
  have c2 : ∀ k : Fin 64, ((cfg0.win 2).blk t).view.emb (ix2 k q) = ix2 k q := fun k => by
    funext a; apply Fin.ext
    match a with
    | ⟨0, _⟩ => show win0_2.index t (0 : Fin 2) * 64 + 1 * k.val = k.val; omega
    | ⟨1, _⟩ => show win0_2.index t (1 : Fin 2) * 64 + 1 * q.val = q.val; omega
  have c3 : ((cfg0.win 3).blk t).view.emb (ix2 0 q) = ix2 0 q := by
    funext a; apply Fin.ext
    match a with
    | ⟨0, _⟩ => show win0_3.index t (0 : Fin 2) * 1 + 1 * 0 = 0; omega
    | ⟨1, _⟩ => show win0_3.index t (1 : Fin 2) * 64 + 1 * q.val = q.val; omega
  have c4 : ((cfg0.win 4).blk t).view.emb (ix2 p q) = ix2 r q := by
    funext a; apply Fin.ext
    match a with
    | ⟨0, _⟩ => show win0_4.index t (0 : Fin 2) * 2000 + 1 * p.val = t.val * 2000 + p.val; omega
    | ⟨1, _⟩ => show win0_4.index t (1 : Fin 2) * 64 + 1 * q.val = q.val; omega
  rw [c4, layerT_apply, c3, c0 q, c1 q]
  refine congrArg (fun s => half * (s + A3 (ix2 0 q)) + half * (keep * A0 (ix2 r q) + anchor * A1 (ix2 r q))) (Finset.sum_congr rfl fun k _ => ?_)
  rw [c0 k, c1 k, c2 k]
  rfl

/-- The same at any index of the block. -/
theorem point_eq' (t : Fin cfg0.N) (A0 A1 : S50000x64.Idx → EReal) (A2 : S64x64.Idx → EReal) (A3 : S1x64.Idx → EReal)
    (y : S2000x64.Idx) :
    k0_pay1 (F := Ideal) (fun y => A0 (((cfg0.win 0).blk t).view.emb y)) (fun y => A1 (((cfg0.win 1).blk t).view.emb y))
        (fun y => A2 (((cfg0.win 2).blk t).view.emb y)) (fun y => A3 (((cfg0.win 3).blk t).view.emb y)) y
      = layerT A0 A1 A2 A3 (((cfg0.win 4).blk t).view.emb y) := by
  obtain ⟨p, q, rfl⟩ : ∃ (p : Fin 2000) (q : Fin 64), y = ix2 p q := ⟨y 0, y 1, eq_ix2 y⟩
  exact point_eq t A0 A1 A2 A3 p q

/-- The same, said of the blocks as the pipeline reads them and of the block it writes back. -/
theorem cut_eq (t : Fin cfg0.N) (A0 A1 : S50000x64.Idx → EReal) (A2 : S64x64.Idx → EReal) (A3 : S1x64.Idx → EReal)
    (y : ((win0 4).xblock (grid0.coords t)).Idx) :
    (win0 4).cut (grid0.coords t) (k0_pay1 (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3)) y
      = View.read (Elt Ideal) ((View.whole main_v19).slice ((win0 4).rect t)) (layerT A0 A1 A2 A3) y :=
  point_eq' t A0 A1 A2 A3 y

/-! ## The blocks cover the array -/

/-- The layer function of the arrays as the region finds them: the aggregated messages, the initial features, the
    transposed weights and the bias row (the arrays of windows 0 to 3). -/
def atEntry (c : Dev nD) : S50000x64.Idx → EReal :=
  layerT (V m c (Pipeline.arrRef spec0 0)) (V m c (Pipeline.arrRef spec0 1)) (V m c (Pipeline.arrRef spec0 2)) (V m c (Pipeline.arrRef spec0 3))

/-- WHAT POINT `t` WRITES BACK is block `t` of the layer function of the region-entry arrays. -/
theorem flushed_eq (c : Dev nD) (t : Fin cfg0.N) :
    (dats m 0 c).flushed 4 t = ((cfg0.win 4).blk t).view.read (Elt Ideal) (atEntry m c) := by
  rw [flushed4]
  unfold out0_4
  rw [View.canon_unit_zero origin]
  simp only [View.ld_unit_zero (S := S2000x64) origin, View.ld_unit_zero (S := S64x64) origin, View.ld_unit_zero (S := S1x64) origin]
  funext y
  exact cut_eq t (V m c (Pipeline.arrRef spec0 0)) (V m c (Pipeline.arrRef spec0 1)) (V m c (Pipeline.arrRef spec0 2)) (V m c (Pipeline.arrRef spec0 3)) y

/-- An index of the array is in point `t`'s block iff each coordinate is in the block's range on its axis. -/
theorem mem_blk (t : Fin cfg0.N) (i : S50000x64.Idx) :
    i ∈ ((cfg0.win 4).blk t).view.set ↔ ∀ a : Fin 2, win0_4.index t a * S2000x64.size a ≤ (i a).val ∧ (i a).val < win0_4.index t a * S2000x64.size a + S2000x64.size a := by
  show i ∈ ((View.whole main_v19).slice (win0_4.rect t)).set ↔ _
  rw [View.set_slice_whole, Rect.mem_set_unit]
  exact Iff.rfl

/-- Row `r` of the array is in the block of point `r / 2000`: every index is in some point's block. -/
theorem cover (i : S50000x64.Idx) : ∃ t : Fin cfg0.N, (cfg0.win 4).flush t = true ∧ i ∈ ((cfg0.win 4).blk t).view.set := by
  have hi0 : (i 0).val < 50000 := (i 0).isLt
  have hi1 : (i 1).val < 64 := (i 1).isLt
  let t : Fin cfg0.N := ⟨(i 0).val / 2000, lt_of_lt_of_eq (by omega) N_0.symm⟩
  obtain ⟨-, -, -, -, -, -, -, -, e40, e41⟩ := index_facts t
  have e40' : win0_4.index t (0 : Fin 2) = (i 0).val / 2000 := e40
  refine ⟨t, flush0_4 t, ?_⟩
  rw [mem_blk]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 64 ≤ (i 1).val ∧ (i 1).val < win0_4.index t (1 : Fin 2) * 64 + 64; omega

/-- THE ARRAY after the run: the layer function of the region-entry arrays, everywhere. -/
theorem final (c : Dev nD) : (dats m 0 c).arrAt 4 cfg0.N = atEntry m c :=
  (dats m 0 c).arrAt_eq_of_cover 4 (atEntry m c) (fun t _ => flushed_eq m c t) cover

/-- The kernel's run, read: the result array ends at the layer function of the region-entry arrays, the arguments
    unchanged. -/
theorem run : θ_run defs (onTc (τ := τ) (main (F := Ideal))) ⟨m, fun _ => 0, ρ⟩ fun r => ∀ c : Dev nD,
      r.2.mem ((c : Thread nD τ).loc main_v19) = atEntry m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.Blocks

end
-- ==== Proof.Entry.lean ====
/-
  The arrays the kernel's region is entered with, in terms of the arguments.

  Before the region the host computes three arrays. The transposed weights and the bias as one row are single layout
  operations of an argument. The aggregated messages are the long stretch: the two rows of the edge list are sliced
  out, negative source indices are wrapped, the source rows are gathered and scaled by the edge weights, and the
  scaled rows are summed into their destination rows. The reference program begins with exactly the same stretch of
  operations, so the array the kernel's host side computes is, term for term, the reference's own stage `%16` of the
  same arguments; nothing about a gather or a scatter is opened.
-/
import proofs.«136563_j21852793602415_1_alg».proof.Proof.Gen.KernelIdeal.Frame
import proofs.«136563_j21852793602415_1_alg».proof.Proof.RefLayer
import Idealize.ShloMosaic.Lib.StableHlo.Run

noncomputable section

namespace Cert.Entry

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ)

/-- The third window's array is the transpose of the weights. -/
theorem weights (c : Dev nD) :
    (V m c main_v17 : S64x64.Idx → EReal) = transpose S64x64 [1, 0] (m ((c : Thread nD τ).loc main_arg3)) transposes_S64x64_S64x64_1_0 := by
  dsimp only [V, hostOps0]; after_results <;> rfl

/-- The fourth window's array is the bias as one row. -/
theorem bias (c : Dev nD) :
    (V m c main_v18 : S1x64.Idx → EReal) = shapeCast S1x64 (m ((c : Thread nD τ).loc main_arg4)) shapeCasts_S64_S1x64 := by
  dsimp only [V, hostOps0]; after_results <;> rfl

/-- The first window's array, the aggregated messages, is the reference's aggregation of the same three arguments. -/
theorem aggregated (c : Dev nD) :
    (V m c main_v16 : S50000x64.Idx → EReal)
      = Cert.RefLayer.agg (m ((c : Thread nD τ).loc main_arg0)) (m ((c : Thread nD τ).loc main_arg2)) (m ((c : Thread nD τ).loc main_arg5)) := by
  dsimp only [V, hostOps0]; after_results_simp <;> rfl

end Cert.Entry

end
-- ==== Proof.lean ====
/-
  One GCNII layer: a kernel that computes the dense half 2000 node rows at a time, against the reference that
  computes it on whole arrays; the two results are equal over the extended reals.

  Both programs first aggregate the edge messages into one row of 64 features per node (gather the source rows,
  scale by the edge weights, sum into the destination rows) with the same host operations, and then compute, for
  node `r` and feature `j`,
      ½ · (Σₖ mix r k · w j k + b j) + ½ · mix r j,     mix r k = c₉ · h r k + c₁ · x0 r k,
  with the same three binary32 coefficients (`Proof/Layer.lean`). The reference does it on whole arrays
  (`Proof/RefLayer.lean` reads its stages at an index). The kernel does it 2000 rows at a time over a grid of 25
  points, from the transposed weights and the bias as a row, multiplying on the matrix unit into a zero
  accumulator with both operands narrowed to bfloat16, which over the extended reals changes nothing
  (`Proof/Body.lean`: what the body stores at an index; `Proof/Blocks.lean`: the 25 blocks tile the array, so the
  result array is the layer function of the arrays the region is entered with; `Proof/Entry.lean`: those arrays in
  terms of the arguments, the aggregated one being the reference's own aggregation term).

  The two sides are the same expression in the same grouping, so no law of arithmetic is used and the precondition
  (finite inputs) is never opened. The kernel's idealization rewrote nothing, so `preserves` has nothing to say;
  the three frames are the generated frame runs (the reference's is its generated run with the result dropped).
-/
import proofs.«136563_j21852793602415_1_alg».proof.Defs
import proofs.«136563_j21852793602415_1_alg».proof.Proof.Gen.Kernel
import proofs.«136563_j21852793602415_1_alg».proof.Proof.Gen.Kernel.Skeleton
import proofs.«136563_j21852793602415_1_alg».proof.Proof.Gen.Kernel.Launch
import proofs.«136563_j21852793602415_1_alg».proof.Proof.Gen.Kernel.Points
import proofs.«136563_j21852793602415_1_alg».proof.Proof.Gen.Kernel.Frame
import proofs.«136563_j21852793602415_1_alg».proof.Proof.Gen.KernelIdeal
import proofs.«136563_j21852793602415_1_alg».proof.Proof.Gen.KernelIdeal.Skeleton
import proofs.«136563_j21852793602415_1_alg».proof.Proof.Gen.KernelIdeal.Launch
import proofs.«136563_j21852793602415_1_alg».proof.Proof.Gen.KernelIdeal.Points
import proofs.«136563_j21852793602415_1_alg».proof.Proof.Gen.KernelIdeal.Frame
import proofs.«136563_j21852793602415_1_alg».proof.Proof.Gen.KernelIdeal.Value
import proofs.«136563_j21852793602415_1_alg».proof.Proof.Gen.ReferenceIdeal
import proofs.«136563_j21852793602415_1_alg».proof.Proof.Gen.ReferenceIdeal.Run
import proofs.«136563_j21852793602415_1_alg».proof.Proof.Gen.ReferenceIdeal.Read
import proofs.«136563_j21852793602415_1_alg».proof.Proof.Gen.Pre_finite_inputs
import proofs.«136563_j21852793602415_1_alg».proof.Proof.Layer
import proofs.«136563_j21852793602415_1_alg».proof.Proof.RefLayer
import proofs.«136563_j21852793602415_1_alg».proof.Proof.Body
import proofs.«136563_j21852793602415_1_alg».proof.Proof.Blocks
import proofs.«136563_j21852793602415_1_alg».proof.Proof.Entry
import Idealize.ShloMosaic.Adequacy
import Idealize.ShloMosaic.Init

noncomputable section

namespace Cert.Proof

open Idealize.ShloMosaic Idealize.ShloMosaic.TcCoe Idealize.SL.Sem

/-! ## The frames -/

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-! ## The values -/

section
open Cert.KernelIdeal Cert.KernelIdeal.Gen

/-- The kernel's result array in terms of its arguments: the layer function of the aggregated messages (the
    reference's aggregation term of the kernel's own arguments), the initial features, the weights and the bias. -/
theorem kernel_result (m : (ℓ : Loc nD τ sig) → Buf (Elt Ideal) ℓ) (c : Dev nD) :
    Cert.Blocks.atEntry m c
      = Cert.Layer.layer
          (Cert.RefLayer.agg (m ((c : Thread nD τ).loc main_arg0)) (m ((c : Thread nD τ).loc main_arg2)) (m ((c : Thread nD τ).loc main_arg5)))
          (m ((c : Thread nD τ).loc main_arg1)) (m ((c : Thread nD τ).loc main_arg3)) (m ((c : Thread nD τ).loc main_arg4)) :=
  (congr (congr (congr (congrArg Cert.Layer.layerT (Cert.Entry.aggregated m c)) (V_main_arg1 m c)) (Cert.Entry.weights m c))
      (Cert.Entry.bias m c)).trans
    (Cert.Layer.layerT_eq_layer _ _ _ _ _ _)

end

/-- Run from memories that agree on the arguments, the idealized kernel and the idealized reference both end, the
    arguments unchanged, with the layer function of the kernel's arguments in their result arrays. -/
theorem algebraic : Cert.algebraic_KernelIdeal_ReferenceIdeal := by
  intro m ρ m' ρ' _ hagree
  refine ⟨fun c => Cert.Layer.layer
      (Cert.RefLayer.agg (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg5)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun r h c => ⟨(h c).1.trans (kernel_result m c), (h c).2⟩)
      (Cert.Blocks.run m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5⟩ := hagree c
    rw [Cert.ReferenceIdeal.Read.val_main_v31_eq, Cert.RefLayer.result_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
